-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x3x256x256 : Shape := ⟨5, ![32, 8, 3, 256, 256]⟩
abbrev S_ : Shape := ⟨0, ![]⟩

class Facts : Prop where
  bcast_S_S32x8x3x256x256 : S_.BroadcastsInDim S32x8x3x256x256 (![] : Fin 0 → Fin S32x8x3x256x256.rank)
  reducesTo_S32x8x3x256x256_S_d0_1_2_3_4 : S32x8x3x256x256.ReducesTo [0, 1, 2, 3, 4] S_
  h_S_ : 0 < S_.numel

variable [Facts]

def fn {F : FTy → Type} [FloatOps F] (main_arg0 : FVec F S32x8x3x256x256 .f32) : IVec S_ 1 :=
  let main_v0 : FVec F S32x8x3x256x256 .f32 := Host.absf main_arg0
  let main_cst : FVec F S_ .f32 := constant S_ .f32 0x7F800000#32
  let main_v1 : FVec F S32x8x3x256x256 .f32 := broadcastInDim S32x8x3x256x256 ![] bcast_S_S32x8x3x256x256 main_cst
  let main_v2 : IVec S32x8x3x256x256 1 := cmpf .olt main_v0 main_v1
  let main_c : IVec S_ 1 := constantI S_ 1 1#1
  let main_v3 : IVec S_ 1 := (fun x v => Host.reduce IntOp.andi x v reducesTo_S32x8x3x256x256_S_d0_1_2_3_4 h_S_) main_v2 main_c
  main_v3
-- ==== Kernel.lean ====
abbrev S32x8x3x256x256 : Shape := ⟨5, ![32, 8, 3, 256, 256]⟩
abbrev S768x256x256 : Shape := ⟨3, ![768, 256, 256]⟩
abbrev S1x1 : Shape := ⟨2, ![1, 1]⟩
abbrev S16x256x256 : Shape := ⟨3, ![16, 256, 256]⟩
abbrev S16x256x255 : Shape := ⟨3, ![16, 256, 255]⟩
abbrev S16x255x256 : Shape := ⟨3, ![16, 255, 256]⟩
abbrev S16x256 : Shape := ⟨2, ![16, 256]⟩
abbrev S16 : Shape := ⟨1, ![16]⟩
abbrev S1x16 : Shape := ⟨2, ![1, 16]⟩
abbrev S1 : Shape := ⟨1, ![1]⟩
abbrev S16x255 : Shape := ⟨2, ![16, 255]⟩
abbrev S_ : Shape := ⟨0, ![]⟩

abbrev nBuf : Space → Nat
  | .hbm => 6
  | .vmem => 3
  | .smem => 0
  | _ => 0

abbrev bufTy : (tb : Table) → Fin (tcTables nBuf tb) → BufTy
  | .hbm, ⟨0, _⟩ => ⟨S32x8x3x256x256, .f32⟩
  | .hbm, ⟨1, _⟩ => ⟨S768x256x256, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S16x256x256, .f32⟩
  | .local _ .vmem, ⟨1, _⟩ => ⟨S16x256x256, .f32⟩
  | .local _ .vmem, ⟨2, _⟩ => ⟨S1x1, .f32⟩
  | _, _ => ⟨S32x8x3x256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S32x8x3x256x256_S768x256x256 : S32x8x3x256x256.ShapeCasts S768x256x256
  inb_S1x1_S1x1_0_0 : ∀ a, (![0, 0] : Fin 2 → Nat) a + S1x1.size a ≤ S1x1.size a
  h_S1x1 : 0 < S1x1.numel
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  slices_S16x256x256_o0_0_1_S16x256x255 : S16x256x256.Slices ![0, 0, 1] S16x256x255
  slices_S16x256x256_o0_0_0_S16x256x255 : S16x256x256.Slices ![0, 0, 0] S16x256x255
  slices_S16x256x256_o0_1_0_S16x255x256 : S16x256x256.Slices ![0, 1, 0] S16x255x256
  slices_S16x256x256_o0_0_0_S16x255x256 : S16x256x256.Slices ![0, 0, 0] S16x255x256
  reduces_S16x256x255_S16x256 : S16x256x255.Reduces [2] S16x256
  reduces_S16x256_S16 : S16x256.Reduces [1] S16
  shapeCasts_S16_S1x16 : S16.ShapeCasts S1x16
  reduces_S1x16_S1 : S1x16.Reduces [1] S1
  shapeCasts_S1_S1x1 : S1.ShapeCasts S1x1
  inpos_S1x1_p0_0 : ∀ a, (![0, 0] : Fin 2 → Nat) a < S1x1.size a
  reduces_S16x255x256_S16x255 : S16x255x256.Reduces [2] S16x255
  reduces_S16x255_S16 : S16x255.Reduces [1] S16
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S768x256x256.size a
  hwx0_0 : ∀ i : grid0.Coords, EltTy.bits .f32 = 32 ∨ (Rect.block (s := S768x256x256) S16x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x8x3x256x256 : Shape := ⟨5, ![32, 8, 3, 256, 256]⟩
abbrev S32x8x3x256x255 : Shape := ⟨5, ![32, 8, 3, 256, 255]⟩
abbrev S_ : Shape := ⟨0, ![]⟩
abbrev S32x8x3x255x256 : Shape := ⟨5, ![32, 8, 3, 255, 256]⟩

abbrev nBuf : Space → Nat
  | .hbm => 22
  | .vmem => 0
  | .smem => 0
  | _ => 0

abbrev bufTy : (tb : Table) → Fin (tcTables nBuf tb) → BufTy
  | .hbm, ⟨0, _⟩ => ⟨S32x8x3x256x256, .f32⟩
  | .hbm, ⟨1, _⟩ => ⟨S32x8x3x256x255, .f32⟩
  | .hbm, ⟨2, _⟩ => ⟨S32x8x3x256x255, .f32⟩
  | .hbm, ⟨3, _⟩ => ⟨S32x8x3x256x255, .f32⟩
  | .hbm, ⟨4, _⟩ => ⟨S_, .f32⟩
  | .hbm, ⟨5, _⟩ => ⟨S32x8x3x256x255, .f32⟩
  | .hbm, ⟨6, _⟩ => ⟨S32x8x3x256x255, .f32⟩
  | .hbm, ⟨7, _⟩ => ⟨S32x8x3x255x256, .f32⟩
  | .hbm, ⟨8, _⟩ => ⟨S32x8x3x255x256, .f32⟩
  | .hbm, ⟨9, _⟩ => ⟨S32x8x3x255x256, .f32⟩
  | .hbm, ⟨10, _⟩ => ⟨S_, .f32⟩
  | .hbm, ⟨11, _⟩ => ⟨S32x8x3x255x256, .f32⟩
  | .hbm, ⟨12, _⟩ => ⟨S32x8x3x255x256, .f32⟩
  | .hbm, ⟨13, _⟩ => ⟨S32x8x3x256x255, .f32⟩
  | .hbm, ⟨14, _⟩ => ⟨S_, .f32⟩
  | .hbm, ⟨15, _⟩ => ⟨S_, .f32⟩
  | .hbm, ⟨16, _⟩ => ⟨S32x8x3x255x256, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S32x8x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  slices_S32x8x3x256x256_S32x8x3x256x255_0_0_0_0_1 : S32x8x3x256x256.Slices ![0, 0, 0, 0, 1] S32x8x3x256x255
  slices_S32x8x3x256x256_S32x8x3x256x255_0_0_0_0_0 : S32x8x3x256x256.Slices ![0, 0, 0, 0, 0] S32x8x3x256x255
  bcast_S_S32x8x3x256x255 : S_.BroadcastsInDim S32x8x3x256x255 (![] : Fin 0 → Fin S32x8x3x256x255.rank)
  slices_S32x8x3x256x256_S32x8x3x255x256_0_0_0_1_0 : S32x8x3x256x256.Slices ![0, 0, 0, 1, 0] S32x8x3x255x256
  slices_S32x8x3x256x256_S32x8x3x255x256_0_0_0_0_0 : S32x8x3x256x256.Slices ![0, 0, 0, 0, 0] S32x8x3x255x256
  bcast_S_S32x8x3x255x256 : S_.BroadcastsInDim S32x8x3x255x256 (![] : Fin 0 → Fin S32x8x3x255x256.rank)
  reducesTo_S32x8x3x256x255_S_d0_1_2_3_4 : S32x8x3x256x255.ReducesTo [0, 1, 2, 3, 4] S_
  h_S_ : 0 < S_.numel
  reducesTo_S32x8x3x255x256_S_d0_1_2_3_4 : S32x8x3x255x256.ReducesTo [0, 1, 2, 3, 4] S_

variable [Facts₀]

class Facts : Prop extends Facts₀ where

variable [Facts]
-- ==== Proof.Pieces.lean ====
/-
  What the kernel body leaves in the accumulator's staging buffer, case by case, as a value.

  The body runs in two cases. At the first grid point it stores the zero block, reads it back as the running total and
  stores total + (this block's gap sums); at every other point it reads the running total the point before left and
  stores total + (this block's gap sums). Either way the buffer's one cell ends at the body's arithmetic term
  (`k0_pay2`) of the input block and of the running total it read: zero in the first case, the carried contents in
  the other. Both facts hold at every float instance: they are about which stores cover the cell, not about arithmetic.
-/
import proofs.«127131_j53498112639571_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from the first point: the cell ends at the body's term of the block and of the carried total. -/
theorem out_B (c : Dev nD) (i : grid0.Coords) (a1 : Memref sig .tc .vmem S16x256x256 .f32) (h1 : a1.IsWhole)
    (a2 : Memref sig .tc .vmem S1x1 .f32) (h2 : a2.IsWhole) (hc : ¬cond0_0 i) (x : Vec F S16x256x256 .f32) (xo : Vec F S1x1 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  sl_unfold_words
  rw [View.canon_unit_zero hz2]
  simp only [View.readAt_eq_ld, h1.read_unread, h2.read_unread, View.ld_unit_zero (S := S16x256x256) hz3,
    View.ld_unit_zero (S := S1x1) hz2]

/-- At the first point: the cell ends at the body's term of the block and of the zero block just stored. -/
theorem out_A (c : Dev nD) (i : grid0.Coords) (a1 : Memref sig .tc .vmem S16x256x256 .f32) (h1 : a1.IsWhole)
    (a2 : Memref sig .tc .vmem S1x1 .f32) (h2 : a2.IsWhole) (hc : cond0_0 i) (x : Vec F S16x256x256 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x1) hz2]
  simp only [View.readAt_eq_ld, h1.read_unread, View.ld_unit_zero (S := S16x256x256) hz3,
    View.readCov_unit_zero (S := S1x1) _ hz2]

end Cert.KernelIdeal.Pieces

end
-- ==== Proof.IndexSums.lean ====
/-
  Sums over boxes of indices, split by coordinates and regrouped, and the row-major reshape that flattens the three
  leading axes [32, 8, 3] of an image batch into one axis of 768 images.

  A sum over a rank-3 or rank-5 box is the iterated sum over its coordinates (`sum_idx3`, `sum_idx5`). The 768 images
  are counted two ways: as 48 blocks of 16 consecutive images (`sum_blocks`: image `16 t + b`), and as the triples
  (B, P, C) of the leading axes in row-major order (`sum_images`: image `l` is `(l / 24, l / 3 % 8, l % 3)`). Both are
  bijections with `Fin 768`, so in a commutative monoid both iterated sums are the one sum over the images. The reshape
  of the batch to [768, H, W] reads image `l` at row `h`, column `w` from the batch at `(l / 24, l / 3 % 8, l % 3, h, w)`:
  the same row-major position (`reshape_apply`).
-/
import Idealize.ShloMosaic.Lib.ValueIdx
import Idealize.ShloMosaic.Lib.Pipeline.Value

noncomputable section

open scoped BigOperators

namespace Cert.TV

open Idealize.ShloMosaic Idealize.ShloMosaic.ValueIdx

variable {M : Type*} [AddCommMonoid M]

/-! ## A box's sum is the iterated sum over its coordinates -/

/-- A rank-3 box is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-5 box is the product of its five coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

theorem sum_idx5 {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f, Fintype.sum_prod_type]
  refine Finset.sum_congr rfl fun a _ => ?_
  rw [Fintype.sum_prod_type]
  refine Finset.sum_congr rfl fun b _ => ?_
  rw [Fintype.sum_prod_type]
  refine Finset.sum_congr rfl fun c _ => ?_
  rw [Fintype.sum_prod_type]
  rfl

/-! ## The 768 images, counted by blocks of 16 and by the three leading axes -/

/-- Image `b` of block `t`: the blocks are 16 consecutive images. -/
def flat (t : Fin 48) (b : Fin 16) : Fin 768 := ⟨16 * t.val + b.val, by have := t.isLt; have := b.isLt; omega⟩

/-- The leading coordinates of image `l` in the batch [32, 8, 3, ·, ·], row-major. -/
def img0 (l : Fin 768) : Fin 32 := ⟨l.val / 24, by have := l.isLt; omega⟩
def img1 (l : Fin 768) : Fin 8 := ⟨l.val / 3 % 8, by omega⟩
def img2 (l : Fin 768) : Fin 3 := ⟨l.val % 3, by omega⟩

/-- Blocks of 16 images tile the 768. -/
def blockEquiv : Fin 48 × Fin 16 ≃ Fin 768 where
  toFun p := flat p.1 p.2
  invFun l := (⟨l.val / 16, by have := l.isLt; omega⟩, ⟨l.val % 16, by omega⟩)
  left_inv p := by
    obtain ⟨⟨t, ht⟩, ⟨b, hb⟩⟩ := p
    refine Prod.ext (Fin.ext ?_) (Fin.ext ?_)
    · show (16 * t + b) / 16 = t; omega
    · show (16 * t + b) % 16 = b; omega
  right_inv l := Fin.ext (by show 16 * (l.val / 16) + l.val % 16 = l.val; omega)

theorem sum_blocks (f : Fin 768 → M) : ∑ t : Fin 48, ∑ b : Fin 16, f (flat t b) = ∑ l, f l := by
  rw [← Equiv.sum_comp blockEquiv f, Fintype.sum_prod_type]
  rfl

/-- The triples of leading coordinates are the 768 images. -/
def imageEquiv : Fin 32 × Fin 8 × Fin 3 ≃ Fin 768 where
  toFun p := ⟨(p.1.val * 8 + p.2.1.val) * 3 + p.2.2.val, by
    have := p.1.isLt; have := p.2.1.isLt; have := p.2.2.isLt; omega⟩
  invFun l := (img0 l, img1 l, img2 l)
  left_inv p := by
    obtain ⟨⟨B, hB⟩, ⟨P, hP⟩, ⟨C, hC⟩⟩ := p
    refine Prod.ext (Fin.ext ?_) (Prod.ext (Fin.ext ?_) (Fin.ext ?_))
    · show ((B * 8 + P) * 3 + C) / 24 = B; omega
    · show ((B * 8 + P) * 3 + C) / 3 % 8 = P; omega
    · show ((B * 8 + P) * 3 + C) % 3 = C; omega
  right_inv l := Fin.ext (by
    show (l.val / 24 * 8 + l.val / 3 % 8) * 3 + l.val % 3 = l.val; omega)

theorem sum_images (g : Fin 32 → Fin 8 → Fin 3 → M) :
    ∑ B : Fin 32, ∑ P : Fin 8, ∑ C : Fin 3, g B P C = ∑ l : Fin 768, g (img0 l) (img1 l) (img2 l) := by
  calc ∑ B : Fin 32, ∑ P : Fin 8, ∑ C : Fin 3, g B P C
      = ∑ p : Fin 32 × Fin 8 × Fin 3, g p.1 p.2.1 p.2.2 := by
        rw [Fintype.sum_prod_type]
        refine Finset.sum_congr rfl fun B _ => ?_
        rw [Fintype.sum_prod_type]
    _ = ∑ l : Fin 768, g (img0 l) (img1 l) (img2 l) :=
        (Equiv.sum_comp imageEquiv.symm (fun p : Fin 32 × Fin 8 × Fin 3 => g p.1 p.2.1 p.2.2)).symm

/-- So a sum over a batch-shaped box [32, 8, 3, n3, n4] is the sum over the images of the sum over the last two axes. -/
theorem sum_batch {n3 n4 : Nat} (f : (⟨5, ![32, 8, 3, n3, n4]⟩ : Shape).Idx → M) :
    ∑ i, f i = ∑ l : Fin 768, ∑ h : Fin n3, ∑ w : Fin n4, f (ix5 (img0 l) (img1 l) (img2 l) h w) := by
  rw [sum_idx5]
  exact sum_images fun B P C => ∑ h : Fin n3, ∑ w : Fin n4, f (ix5 B P C h w)

/-! ## The reshape to [768, H, W] at an index -/

theorem reshape_apply {α : Type} {H W : Nat} (x : (⟨5, ![32, 8, 3, H, W]⟩ : Shape).Idx → α)
    (hc : (⟨5, ![32, 8, 3, H, W]⟩ : Shape).ShapeCasts ⟨3, ![768, H, W]⟩) (l : Fin 768) (h : Fin H) (w : Fin W) :
    shapeCast ⟨3, ![768, H, W]⟩ x hc (ix3 l h w) = x (ix5 (img0 l) (img1 l) (img2 l) h w) :=
  shapeCast_apply x hc _ _ (by
    rw [Shape.rowMajor_val_five, Shape.rowMajor_val_three]
    show ((((l.val / 24) * 8 + l.val / 3 % 8) * 3 + l.val % 3) * H + h.val) * W + w.val = (l.val * H + h.val) * W + w.val
    have e : ((l.val / 24) * 8 + l.val / 3 % 8) * 3 + l.val % 3 = l.val := by omega
    rw [e])

end Cert.TV

end
-- ==== Proof.Variation.lean ====
/-
  The total variation of a stack of images, as one function of the stack, over the extended reals.

  For a stack `Y` of `n` images of 256 × 256, the horizontal gap at image `l`, row `h`, column `w < 255` is
  `|Y(l, h, w+1) - Y(l, h, w) + ε|`, the vertical gap at row `h < 255` is `|Y(l, h+1, w) - Y(l, h, w) + ε|`, with `ε` the
  single-precision value nearest 1e-6 (the same word in both programs, so it is never evaluated) and `|a| = max a (-a)`.
  `sumW Y` and `sumH Y` add the gaps over the whole stack, image by image, row by row.

  The regrouping law (`sum_blocks_tv`): if the stack of 768 images is cut into 48 blocks of 16 consecutive images, the
  sum over the blocks of each block's two gap sums is the whole stack's two gap sums. Addition of extended reals is
  commutative and associative (with `⊤ + ⊥ = ⊥`), so the law needs no finiteness: it is `Finset.sum_add_distrib` and
  the count of the images by blocks.
-/
import proofs.«127131_j53498112639571_1_alg».proof.Proof.IndexSums

noncomputable section

open scoped BigOperators

namespace Cert.TV

open Idealize.ShloMosaic Idealize.ShloMosaic.ValueIdx

/-- The offset both programs add to every difference: the single-precision word nearest 1e-6. -/
def eps : EReal := Ideal.ofBits .f32 0x358637BD#32

/-- The absolute value on the extended reals. -/
def absE (a : EReal) : EReal := max a (-a)

/-- A stack of `n` images. -/
abbrev Stack (n : Nat) : Type := (⟨3, ![n, 256, 256]⟩ : Shape).Idx → EReal

/-- The horizontal gap at image `l`, row `h`, between columns `w` and `w + 1`. -/
def gapW {n : Nat} (Y : Stack n) (l : Fin n) (h : Fin 256) (w : Fin 255) : EReal :=
  absE (Y (ix3 l h ⟨w.val + 1, by omega⟩) - Y (ix3 l h ⟨w.val, by omega⟩) + eps)

/-- The vertical gap at image `l`, column `w`, between rows `h` and `h + 1`. -/
def gapH {n : Nat} (Y : Stack n) (l : Fin n) (h : Fin 255) (w : Fin 256) : EReal :=
  absE (Y (ix3 l ⟨h.val + 1, by omega⟩ w) - Y (ix3 l ⟨h.val, by omega⟩ w) + eps)

/-- All horizontal gaps of a stack. -/
def sumW {n : Nat} (Y : Stack n) : EReal := ∑ l : Fin n, ∑ h : Fin 256, ∑ w : Fin 255, gapW Y l h w

/-- All vertical gaps of a stack. -/
def sumH {n : Nat} (Y : Stack n) : EReal := ∑ l : Fin n, ∑ h : Fin 255, ∑ w : Fin 256, gapH Y l h w

/-- The stack of 768 images cut into 48 blocks of 16 consecutive images: the blocks' gap sums add up to the stack's. -/
theorem sum_blocks_tv (X : Stack 768) (blk : Fin 48 → Stack 16)
    (hblk : ∀ (t : Fin 48) (b : Fin 16) (h w : Fin 256), blk t (ix3 b h w) = X (ix3 (flat t b) h w)) :
    ∑ t : Fin 48, (sumW (blk t) + sumH (blk t)) = sumW X + sumH X := by
  have hW : ∀ t b h w, gapW (blk t) b h w = gapW X (flat t b) h w := fun t b h w => by
    unfold gapW; rw [hblk, hblk]
  have hH : ∀ t b h w, gapH (blk t) b h w = gapH X (flat t b) h w := fun t b h w => by
    unfold gapH; rw [hblk, hblk]
  rw [Finset.sum_add_distrib]
  unfold sumW sumH
  simp only [hW, hH]
  rw [sum_blocks (fun l => ∑ h : Fin 256, ∑ w : Fin 255, gapW X l h w),
    sum_blocks (fun l => ∑ h : Fin 255, ∑ w : Fin 256, gapH X l h w)]

end Cert.TV

end
-- ==== Proof.BlockGaps.lean ====
/-
  The value the program's body stores, read at the extended reals: the accumulator plus the two gap sums of the block.

  The body loads a block of 16 images of 256 × 256 and the running 1 × 1 accumulator. From the block it forms, entry by
  entry, |x(b, h, w+1) - x(b, h, w) + ε| over the columns w < 255 and |x(b, h+1, w) - x(b, h, w) + ε| over the rows
  h < 255 (two slices of the block, their difference, the offset ε added, the absolute value max a (-a)). Each of the
  two arrays is then added up by three sums over one axis each: over the columns, over the rows, and — after the 16
  per-image totals are viewed as a 1 × 16 array — over the images; the single number left is viewed as 1 × 1 and read
  at its one position. The two numbers are added and the sum is added to the accumulator.

  Over the extended reals every one of these operations is exact, and a sum over one axis with the zero start value is
  the sum over that axis's coordinates. So the three nested sums of each side are, term by term, the specification's
  triple sums `sumW` and `sumH` of the block (Variation.lean): the lemmas below read each sum at explicit coordinates,
  each slice at explicit coordinates, identify one entry with one gap, and put the pieces together.
-/
import proofs.«127131_j53498112639571_1_alg».proof.Proof.Variation
import proofs.«127131_j53498112639571_1_alg».proof.Proof.Gen.KernelIdeal.Skeleton
import Idealize.ShloMosaic.PureOps.Ideal.Laws
import Idealize.ShloMosaic.Lib.ValueLayout
import Idealize.ShloMosaic.Lib.Pipeline.Value

noncomputable section

open scoped BigOperators

namespace Cert.KernelIdeal.BlockGaps

open Idealize.ShloMosaic Idealize.ShloMosaic.ValueIdx Cert.KernelIdeal Cert.KernelIdeal.Gen

/-! ## One-axis sums at explicit coordinates -/

/-- Summing a [16,256,255] array over its last axis. -/
theorem red_w (v : FVec Ideal S16x256x255 .f32) (h : S16x256x255.Reduces [2] S16x256) (hφ : FKind.Formats .f32)
    (hacc : (0x00000000#32 : BitVec 32) = FKind.add.neutral .f32 hφ) (b : Fin 16) (r : Fin 256) :
    multiReduction .add [2] S16x256 v 0x00000000#32 h hφ hacc (ix2 b r) = ∑ w : Fin 255, v (ix3 b r w) := by
  refine (Ideal.multiReduction_add_single v _ h hφ hacc _).trans ?_
  refine Finset.sum_congr rfl fun k _ => ?_
  refine congrArg v ?_
  funext a
  match a with
  | ⟨0, _⟩ => exact Fin.ext rfl
  | ⟨1, _⟩ => exact Fin.ext rfl
  | ⟨2, _⟩ => exact Fin.ext rfl

/-- Summing a [16,256] array over its last axis. -/
theorem red_rows (v : FVec Ideal S16x256 .f32) (h : S16x256.Reduces [1] S16) (hφ : FKind.Formats .f32)
    (hacc : (0x00000000#32 : BitVec 32) = FKind.add.neutral .f32 hφ) (b : Fin 16) :
    multiReduction .add [1] S16 v 0x00000000#32 h hφ hacc (ix1 b) = ∑ r : Fin 256, v (ix2 b r) := by
  refine (Ideal.multiReduction_add_single v _ h hφ hacc _).trans ?_
  refine Finset.sum_congr rfl fun k _ => ?_
  refine congrArg v ?_
  funext a
  match a with
  | ⟨0, _⟩ => exact Fin.ext rfl
  | ⟨1, _⟩ => exact Fin.ext rfl

/-- Summing a [16,255,256] array over its last axis. -/
theorem red_w' (v : FVec Ideal S16x255x256 .f32) (h : S16x255x256.Reduces [2] S16x255) (hφ : FKind.Formats .f32)
    (hacc : (0x00000000#32 : BitVec 32) = FKind.add.neutral .f32 hφ) (b : Fin 16) (r : Fin 255) :
    multiReduction .add [2] S16x255 v 0x00000000#32 h hφ hacc (ix2 b r) = ∑ w : Fin 256, v (ix3 b r w) := by
  refine (Ideal.multiReduction_add_single v _ h hφ hacc _).trans ?_
  refine Finset.sum_congr rfl fun k _ => ?_
  refine congrArg v ?_
  funext a
  match a with
  | ⟨0, _⟩ => exact Fin.ext rfl
  | ⟨1, _⟩ => exact Fin.ext rfl
  | ⟨2, _⟩ => exact Fin.ext rfl

/-- Summing a [16,255] array over its last axis. -/
theorem red_rows' (v : FVec Ideal S16x255 .f32) (h : S16x255.Reduces [1] S16) (hφ : FKind.Formats .f32)
    (hacc : (0x00000000#32 : BitVec 32) = FKind.add.neutral .f32 hφ) (b : Fin 16) :
    multiReduction .add [1] S16 v 0x00000000#32 h hφ hacc (ix1 b) = ∑ r : Fin 255, v (ix2 b r) := by
  refine (Ideal.multiReduction_add_single v _ h hφ hacc _).trans ?_
  refine Finset.sum_congr rfl fun k _ => ?_
  refine congrArg v ?_
  funext a
  match a with
  | ⟨0, _⟩ => exact Fin.ext rfl
  | ⟨1, _⟩ => exact Fin.ext rfl

/-- Summing a [1,16] array over its last axis. -/
theorem red_imgs (v : FVec Ideal S1x16 .f32) (h : S1x16.Reduces [1] S1) (hφ : FKind.Formats .f32)
    (hacc : (0x00000000#32 : BitVec 32) = FKind.add.neutral .f32 hφ) (u : Fin 1) :
    multiReduction .add [1] S1 v 0x00000000#32 h hφ hacc (ix1 u) = ∑ b : Fin 16, v (ix2 u b) := by
  refine (Ideal.multiReduction_add_single v _ h hφ hacc _).trans ?_
  refine Finset.sum_congr rfl fun k _ => ?_
  refine congrArg v ?_
  funext a
  match a with
  | ⟨0, _⟩ => exact Fin.ext rfl
  | ⟨1, _⟩ => exact Fin.ext rfl

/-- The last steps of either side: a [16] vector viewed as [1,16], summed over its 16 entries into [1], viewed as
    [1,1] and read at its one position, is the sum of the 16 entries. -/
theorem tail (v : FVec Ideal S16 .f32) (hc : S16.ShapeCasts S1x16) (h : S1x16.Reduces [1] S1) (hφ : FKind.Formats .f32)
    (hacc : (0x00000000#32 : BitVec 32) = FKind.add.neutral .f32 hφ) (hc' : S1.ShapeCasts S1x1)
    (hp : ∀ a, (![0, 0] : Fin 2 → Nat) a < S1x1.size a) :
    extractAt ![0, 0] (shapeCast S1x1 (multiReduction .add [1] S1 (shapeCast S1x16 v hc) 0x00000000#32 h hφ hacc) hc') hp
      = ∑ b : Fin 16, v (ix1 b) := by
  have e : (fun a => ⟨(![0, 0] : Fin 2 → Nat) a, hp a⟩ : S1x1.Idx) = ix2 (0 : Fin 1) (0 : Fin 1) := by
    funext a
    match a with
    | ⟨0, _⟩ => rfl
    | ⟨1, _⟩ => rfl
  unfold extractAt
  rw [e, shapeCast_a_1a_apply, red_imgs]
  exact Finset.sum_congr rfl fun b _ => shapeCast_a_1a_apply v hc 0 b

/-! ## The four slices of a block at explicit coordinates -/

variable {α : Type}

/-- Columns 1..255 of a block. -/
theorem slice_w1 (x : S16x256x256.Idx → α) (h : S16x256x256.Slices ![0, 0, 1] S16x256x255) (b : Fin 16) (r : Fin 256)
    (w : Fin 255) :
    extractStridedSlice S16x256x255 ![0, 0, 1] x h (ix3 b r w) = x (ix3 b r ⟨w.val + 1, by omega⟩) :=
  extractStridedSlice_apply _ x h _ _ fun a => by
    match a with
    | ⟨0, _⟩ => exact (Nat.zero_add _).symm
    | ⟨1, _⟩ => exact (Nat.zero_add _).symm
    | ⟨2, _⟩ => exact Nat.add_comm _ _

/-- Columns 0..254 of a block. -/
theorem slice_w0 (x : S16x256x256.Idx → α) (h : S16x256x256.Slices ![0, 0, 0] S16x256x255) (b : Fin 16) (r : Fin 256)
    (w : Fin 255) :
    extractStridedSlice S16x256x255 ![0, 0, 0] x h (ix3 b r w) = x (ix3 b r ⟨w.val, by omega⟩) :=
  extractStridedSlice_apply _ x h _ _ fun a => by
    match a with
    | ⟨0, _⟩ => exact (Nat.zero_add _).symm
    | ⟨1, _⟩ => exact (Nat.zero_add _).symm
    | ⟨2, _⟩ => exact (Nat.zero_add _).symm

/-- Rows 1..255 of a block. -/
theorem slice_h1 (x : S16x256x256.Idx → α) (h : S16x256x256.Slices ![0, 1, 0] S16x255x256) (b : Fin 16) (r : Fin 255)
    (w : Fin 256) :
    extractStridedSlice S16x255x256 ![0, 1, 0] x h (ix3 b r w) = x (ix3 b ⟨r.val + 1, by omega⟩ w) :=
  extractStridedSlice_apply _ x h _ _ fun a => by
    match a with
    | ⟨0, _⟩ => exact (Nat.zero_add _).symm
    | ⟨1, _⟩ => exact Nat.add_comm _ _
    | ⟨2, _⟩ => exact (Nat.zero_add _).symm

/-- Rows 0..254 of a block. -/
theorem slice_h0 (x : S16x256x256.Idx → α) (h : S16x256x256.Slices ![0, 0, 0] S16x255x256) (b : Fin 16) (r : Fin 255)
    (w : Fin 256) :
    extractStridedSlice S16x255x256 ![0, 0, 0] x h (ix3 b r w) = x (ix3 b ⟨r.val, by omega⟩ w) :=
  extractStridedSlice_apply _ x h _ _ fun a => by
    match a with
    | ⟨0, _⟩ => exact (Nat.zero_add _).symm
    | ⟨1, _⟩ => exact (Nat.zero_add _).symm
    | ⟨2, _⟩ => exact (Nat.zero_add _).symm

/-! ## One gap, as the kernel computes it -/

/-- The kernel's horizontal term at (b, r, w) is the specification's horizontal gap there. -/
theorem gapW_eq (x : Vec Ideal S16x256x256 .f32) (hs1 : S16x256x256.Slices ![0, 0, 1] S16x256x255)
    (hs0 : S16x256x256.Slices ![0, 0, 0] S16x256x255) (b : Fin 16) (r : Fin 256) (w : Fin 255) :
    absf (addf (subf (extractStridedSlice S16x256x255 ![0, 0, 1] x hs1) (extractStridedSlice S16x256x255 ![0, 0, 0] x hs0))
        (broadcast S16x256x255 (Scalar.ofBits (F := Ideal) .f32 0x358637BD#32))) (ix3 b r w)
      = Cert.TV.gapW (n := 16) x b r w := by
  have e1 := slice_w1 x hs1 b r w
  have e0 := slice_w0 x hs0 b r w
  show max (extractStridedSlice S16x256x255 ![0, 0, 1] x hs1 (ix3 b r w)
        - extractStridedSlice S16x256x255 ![0, 0, 0] x hs0 (ix3 b r w) + Ideal.ofBits .f32 0x358637BD#32)
      (-(extractStridedSlice S16x256x255 ![0, 0, 1] x hs1 (ix3 b r w)
        - extractStridedSlice S16x256x255 ![0, 0, 0] x hs0 (ix3 b r w) + Ideal.ofBits .f32 0x358637BD#32)) = _
  rw [e1, e0]
  rfl

/-- The kernel's vertical term at (b, r, w) is the specification's vertical gap there. -/
theorem gapH_eq (x : Vec Ideal S16x256x256 .f32) (hs1 : S16x256x256.Slices ![0, 1, 0] S16x255x256)
    (hs0 : S16x256x256.Slices ![0, 0, 0] S16x255x256) (b : Fin 16) (r : Fin 255) (w : Fin 256) :
    absf (addf (subf (extractStridedSlice S16x255x256 ![0, 1, 0] x hs1) (extractStridedSlice S16x255x256 ![0, 0, 0] x hs0))
        (broadcast S16x255x256 (Scalar.ofBits (F := Ideal) .f32 0x358637BD#32))) (ix3 b r w)
      = Cert.TV.gapH (n := 16) x b r w := by
  have e1 := slice_h1 x hs1 b r w
  have e0 := slice_h0 x hs0 b r w
  show max (extractStridedSlice S16x255x256 ![0, 1, 0] x hs1 (ix3 b r w)
        - extractStridedSlice S16x255x256 ![0, 0, 0] x hs0 (ix3 b r w) + Ideal.ofBits .f32 0x358637BD#32)
      (-(extractStridedSlice S16x255x256 ![0, 1, 0] x hs1 (ix3 b r w)
        - extractStridedSlice S16x255x256 ![0, 0, 0] x hs0 (ix3 b r w) + Ideal.ofBits .f32 0x358637BD#32)) = _
  rw [e1, e0]
  rfl

/-! ## Each side of the kernel's sum -/

/-- The three sums of the horizontal side add every horizontal gap of the block. -/
theorem sideW (x : Vec Ideal S16x256x256 .f32) (hs1 : S16x256x256.Slices ![0, 0, 1] S16x256x255)
    (hs0 : S16x256x256.Slices ![0, 0, 0] S16x256x255) (h1 : S16x256x255.Reduces [2] S16x256)
    (h2 : S16x256.Reduces [1] S16) (hc : S16.ShapeCasts S1x16) (h3 : S1x16.Reduces [1] S1) (hc' : S1.ShapeCasts S1x1)
    (hp : ∀ a, (![0, 0] : Fin 2 → Nat) a < S1x1.size a) (hφ : FKind.Formats .f32)
    (hacc : (0x00000000#32 : BitVec 32) = FKind.add.neutral .f32 hφ) :
    extractAt ![0, 0] (shapeCast S1x1 (multiReduction .add [1] S1 (shapeCast S1x16 (multiReduction .add [1] S16
        (multiReduction .add [2] S16x256
          (absf (addf (subf (extractStridedSlice S16x256x255 ![0, 0, 1] x hs1) (extractStridedSlice S16x256x255 ![0, 0, 0] x hs0))
            (broadcast S16x256x255 (Scalar.ofBits (F := Ideal) .f32 0x358637BD#32))))
          0x00000000#32 h1 hφ hacc) 0x00000000#32 h2 hφ hacc) hc) 0x00000000#32 h3 hφ hacc) hc') hp
      = Cert.TV.sumW (n := 16) x := by
  rw [tail]
  unfold Cert.TV.sumW
  refine Finset.sum_congr rfl fun b _ => ?_
  rw [red_rows]
  refine Finset.sum_congr rfl fun r _ => ?_
  rw [red_w]
  exact Finset.sum_congr rfl fun w _ => gapW_eq x hs1 hs0 b r w

/-- The three sums of the vertical side add every vertical gap of the block. -/
theorem sideH (x : Vec Ideal S16x256x256 .f32) (hs1 : S16x256x256.Slices ![0, 1, 0] S16x255x256)
    (hs0 : S16x256x256.Slices ![0, 0, 0] S16x255x256) (h1 : S16x255x256.Reduces [2] S16x255)
    (h2 : S16x255.Reduces [1] S16) (hc : S16.ShapeCasts S1x16) (h3 : S1x16.Reduces [1] S1) (hc' : S1.ShapeCasts S1x1)
    (hp : ∀ a, (![0, 0] : Fin 2 → Nat) a < S1x1.size a) (hφ : FKind.Formats .f32)
    (hacc : (0x00000000#32 : BitVec 32) = FKind.add.neutral .f32 hφ) :
    extractAt ![0, 0] (shapeCast S1x1 (multiReduction .add [1] S1 (shapeCast S1x16 (multiReduction .add [1] S16
        (multiReduction .add [2] S16x255
          (absf (addf (subf (extractStridedSlice S16x255x256 ![0, 1, 0] x hs1) (extractStridedSlice S16x255x256 ![0, 0, 0] x hs0))
            (broadcast S16x255x256 (Scalar.ofBits (F := Ideal) .f32 0x358637BD#32))))
          0x00000000#32 h1 hφ hacc) 0x00000000#32 h2 hφ hacc) hc) 0x00000000#32 h3 hφ hacc) hc') hp
      = Cert.TV.sumH (n := 16) x := by
  rw [tail]
  unfold Cert.TV.sumH
  refine Finset.sum_congr rfl fun b _ => ?_
  rw [red_rows']
  refine Finset.sum_congr rfl fun r _ => ?_
  rw [red_w']
  exact Finset.sum_congr rfl fun w _ => gapH_eq x hs1 hs0 b r w

/-! ## The kernel body's stored value -/

/-- The value the kernel body stores: the accumulator plus the block's two gap sums. -/
theorem pay2_apply (x0 : Vec Ideal S16x256x256 .f32) (acc : Vec Ideal S1x1 .f32) (j : S1x1.Idx) :
    k0_pay2 (F := Ideal) x0 acc j = acc j + (Cert.TV.sumW (n := 16) x0 + Cert.TV.sumH (n := 16) x0) := by
  have hx : shapeCast S16x256x256 x0 shapeCasts_S16x256x256_S16x256x256 = x0 := shapeCast_self _ _
  have ha : shapeCast S1x1 acc shapeCasts_S1x1_S1x1 j = acc j := congrFun (shapeCast_self _ _) j
  have hW := sideW (shapeCast S16x256x256 x0 shapeCasts_S16x256x256_S16x256x256)
    slices_S16x256x256_o0_0_1_S16x256x255 slices_S16x256x256_o0_0_0_S16x256x255 reduces_S16x256x255_S16x256
    reduces_S16x256_S16 shapeCasts_S16_S1x16 reduces_S1x16_S1 shapeCasts_S1_S1x1 inpos_S1x1_p0_0 (.inl rfl) rfl
  have hH := sideH (shapeCast S16x256x256 x0 shapeCasts_S16x256x256_S16x256x256)
    slices_S16x256x256_o0_1_0_S16x255x256 slices_S16x256x256_o0_0_0_S16x255x256 reduces_S16x255x256_S16x255
    reduces_S16x255_S16 shapeCasts_S16_S1x16 reduces_S1x16_S1 shapeCasts_S1_S1x1 inpos_S1x1_p0_0 (.inl rfl) rfl
  have hW' := hW.trans (congrArg (Cert.TV.sumW (n := 16)) hx)
  have hH' := hH.trans (congrArg (Cert.TV.sumH (n := 16)) hx)
  exact congrArg₂ (· + ·) ha (congrArg₂ (· + ·) hW' hH')

end Cert.KernelIdeal.BlockGaps

end
-- ==== Proof.Mean.lean ====
/-
  The mean total variation: the stack's two gap sums, added, over the element count of the batch.

  Both programs end with the same host division of the summed gaps by the same single-precision word
  (`0x4C400000`, the count 32 · 8 · 3 · 256 · 256 = 50331648), so the quotient is stated once, as one rank-0 array, and
  neither side ever opens it.
-/
import proofs.«127131_j53498112639571_1_alg».proof.Proof.Variation

noncomputable section

namespace Cert.TV

open Idealize.ShloMosaic Idealize.ShloMosaic.ValueIdx

/-- The summed gaps of a stack of 768 images divided by the batch's element count, as a rank-0 array. -/
def tvMean (X : Stack 768) : FVec Ideal ⟨0, ![]⟩ .f32 :=
  Host.divf (F := Ideal) (fun _ => sumW X + sumH X) (constant (F := Ideal) ⟨0, ![]⟩ .f32 0x4C400000#32)

end Cert.TV

end
-- ==== Proof.Running.lean ====
/-
  The running total in the accumulator, point by point, and the array the region leaves.

  The region walks the stack of 768 images in 48 blocks of 16. Block `t` of the input window is the stack's images
  `16 t … 16 t + 15` (`xblk_apply`), and the stack the region finds is the batch reshaped to [768, 256, 256] by the host
  line before it (`xarr_eq`). After point `n` the accumulator's one cell holds the sum over the points `k ≤ n` of block
  `k`'s two gap sums (`outsAt_eq`, by induction on the point: the first point adds to the zero it has just stored, every
  later point to what the point before left). The accumulator is written back once, after the last point, so the
  region's result array is the sum over all 48 blocks, which is the whole stack's two gap sums (`Cert.TV.sum_blocks_tv`).
-/
import proofs.«127131_j53498112639571_1_alg».proof.Proof.Pieces
import proofs.«127131_j53498112639571_1_alg».proof.Proof.BlockGaps
import proofs.«127131_j53498112639571_1_alg».proof.Proof.Mean
import Idealize.ShloMosaic.PureOps.Ideal.Laws
import Idealize.ShloMosaic.Lib.Pipeline.Value
import Idealize.ShloMosaic.Lib.StableHlo.Run

noncomputable section

open scoped BigOperators

namespace Cert.KernelIdeal.Running

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- Block `t` of the stack, as the input window holds it at point `t`. -/
abbrev xblk (c : Dev nD) (t : Fin cfg0.N) : Vec Ideal S16x256x256 .f32 := iblk m c 0 t
/-- The stack of 768 images the region finds. -/
abbrev xarr (c : Dev nD) : Vec Ideal S768x256x256 .f32 := V m c main_v0

/-- The input window's block index at point `t` is `(t, 0, 0)`. -/
theorem idx_facts : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

theorem N48 : cfg0.N = 48 := N_0

/-- Block `t` at `(b, h, w)` is the stack at image `16 t + b`. -/
theorem xblk_apply (c : Dev nD) (t : Fin cfg0.N) (b : Fin 16) (h w : Fin 256) (l : Fin 768) (hl : l.val = 16 * t.val + b.val) :
    xblk m c t (ix3 b h w) = xarr m c (ix3 l h w) := by
  unfold xblk xarr iblk
  rw [View.read_apply]
  show V m c main_v0 _ = V m c main_v0 _
  congr 1
  funext a
  apply Fin.ext
  match a with
  | ⟨0, _⟩ => show win0_0.index t 0 * 16 + 1 * b.val = l.val; rw [(idx_facts t).1]; omega
  | ⟨1, _⟩ => show win0_0.index t 1 * 256 + 1 * h.val = h.val; rw [(idx_facts t).2.1]; omega
  | ⟨2, _⟩ => show win0_0.index t 2 * 256 + 1 * w.val = w.val; rw [(idx_facts t).2.2]; omega

/-- The stack the region finds is the batch, reshaped by the host line before the region. -/
theorem xarr_eq (c : Dev nD) :
    xarr m c = shapeCast S768x256x256 (m ((c : Thread nD τ).loc main_arg0)) shapeCasts_S32x8x3x256x256_S768x256x256 := by
  show StableHlo.after hostOps0 (fun b => m (c, b)) (Proc.devRef .tc main_v0) = _
  after_results
  rfl

/-- Block `k`'s two gap sums (zero past the grid, which no point reaches). -/
def blockTV (c : Dev nD) (k : ℕ) : EReal :=
  if h : k < cfg0.N then Cert.TV.sumW (n := 16) (xblk m c ⟨k, h⟩) + Cert.TV.sumH (n := 16) (xblk m c ⟨k, h⟩) else 0

theorem blockTV_of_lt (c : Dev nD) (k : ℕ) (h : k < cfg0.N) :
    blockTV m c k = Cert.TV.sumW (n := 16) (xblk m c ⟨k, h⟩) + Cert.TV.sumH (n := 16) (xblk m c ⟨k, h⟩) := dif_pos h

/-- The block the first point stores is zero. -/
theorem pay1_apply (j : S1x1.Idx) : k0_pay1 (F := Ideal) j = 0 := Ideal.ofBits_zero_f32

/-- After point `n` the accumulator holds the gap sums of blocks `0 … n`. -/
theorem outsAt_eq (c : Dev nD) : ∀ (n : ℕ) (h : n < cfg0.N),
    outsAt0 m c n h = fun _ => ∑ k ∈ Finset.range (n + 1), blockTV m c k
  | 0, h => by
    rw [outsAt0_A m c ⟨0, h⟩ rfl, Pieces.out_A]
    funext j
    rw [BlockGaps.pay2_apply, pay1_apply, zero_add, Finset.sum_range_one, blockTV_of_lt m c 0 h]
  | n + 1, h => by
    have hN : cfg0.N = 48 := N_0
    have hB : ¬(⟨n + 1, h⟩ : Fin cfg0.N).val % 48 = 0 := by dsimp only; omega
    rw [outsAt0_B m c ⟨n + 1, h⟩ hB, Pieces.out_B]
    funext j
    rw [BlockGaps.pay2_apply]
    show outsAt0 m c n _ j + _ = _
    rw [outsAt_eq c n, Finset.sum_range_succ _ (n + 1), blockTV_of_lt m c (n + 1) h]

/-- All 48 blocks: the whole stack's gap sums. -/
theorem total_eq (c : Dev nD) :
    ∑ k ∈ Finset.range 48, blockTV m c k = Cert.TV.sumW (n := 768) (xarr m c) + Cert.TV.sumH (n := 768) (xarr m c) := by
  rw [Finset.sum_range]
  refine Eq.trans ?_ (Cert.TV.sum_blocks_tv (xarr m c) (fun t => xblk m c (t.cast N48.symm))
    (fun t b h w => xblk_apply m c _ b h w _ rfl))
  refine Finset.sum_congr rfl fun t _ => ?_
  exact blockTV_of_lt m c t.val (by rw [N48]; exact t.isLt)

/-- The last point. -/
abbrev last : Fin cfg0.N := ⟨47, by rw [N48]; decide⟩

/-- What the region's result array ends holding: in its one cell, the whole stack's gap sums. -/
def result (c : Dev nD) : Buf (Elt Ideal) ((c : Thread nD τ).loc main_v1) :=
  fun _ => Cert.TV.sumW (n := 768) (xarr m c) + Cert.TV.sumH (n := 768) (xarr m c)

/-- The one write-back, after the last point, writes the accumulator: all 48 blocks' sums. -/
theorem flushed_eq (c : Dev nD) (t : Fin cfg0.N) (hf : (cfg0.win 1).flush t = true) :
    (dats m 0 c).flushed 1 t = ((cfg0.win 1).blk t).view.read (Elt Ideal) (result m c) := by
  have h47 : t.val = 47 := by have h1 := (flush0_1 t).mp hf; have h2 : t.val < 48 := lt_of_lt_of_eq t.isLt N48; omega
  obtain rfl : t = last := Fin.ext h47
  show (cfg0.win 1).cut (grid0.coords last) ((dats m 0 c).after 1 last) = _
  rw [after0_1, outsAt_eq]
  funext j
  rw [View.read_apply]
  show ∑ k ∈ Finset.range 48, blockTV m c k = _
  exact total_eq m c

/-- So the region's result array ends at the whole stack's gap sums: the last point's block is the whole [1, 1] array. -/
theorem final_o (c : Dev nD) : (dats m 0 c).arrAt 1 cfg0.N = result m c :=
  (dats m 0 c).arrAt_eq_of_cover 1 (result m c) (flushed_eq m c) fun i =>
    ⟨last, (flush0_1 last).mpr rfl, by
      show i ∈ ((View.whole main_v1).slice (win0_1.rect last)).set
      rw [View.set_slice_whole, Rect.mem_set_unit]
      intro a
      have h0 : (i 0 : Nat) < 1 := (i 0).isLt
      have h1 : (i 1 : Nat) < 1 := (i 1).isLt
      match a with
      | ⟨0, _⟩ => show win0_1.index last 0 * win0_1.size 0 ≤ (i 0 : Nat) ∧ (i 0 : Nat) < win0_1.index last 0 * win0_1.size 0 + win0_1.xsize (grid0.coords last) 0
                  rw [show win0_1.index last 0 * win0_1.size 0 = 0 from by decide +kernel, show win0_1.xsize (grid0.coords last) 0 = 1 from by decide +kernel]; omega
      | ⟨1, _⟩ => show win0_1.index last 1 * win0_1.size 1 ≤ (i 1 : Nat) ∧ (i 1 : Nat) < win0_1.index last 1 * win0_1.size 1 + win0_1.xsize (grid0.coords last) 1
                  rw [show win0_1.index last 1 * win0_1.size 1 = 0 from by decide +kernel, show win0_1.xsize (grid0.coords last) 1 = 1 from by decide +kernel]; omega⟩

/-- The host lines after the region: the [1, 1] result reshaped to a scalar and divided by the element count. -/
theorem tail_eq (c : Dev nD) :
    Pipeline.afterTail₀ cfgs (dats m) 0 (V0 m) [hostOps1] c main_v3 = Cert.TV.tvMean (xarr m c) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v1)
      = result m c from (Pipeline.withArrays_arr spec0 launch0.win.arr_inj c _ _ 1).trans (final_o m c)]
  rfl

/-- The kernel program's run, read: its result is the mean total variation of the reshaped stack; the batch is unchanged. -/
theorem run : θ_run defs (onTc (τ := τ) (main (F := Ideal))) ⟨m, fun _ => 0, ρ⟩ fun r => ∀ c : Dev nD,
      r.2.mem ((c.tc : Thread nD τ).loc main_v3) = Cert.TV.tvMean (xarr m c)
      ∧ r.2.mem ((c.tc : Thread nD τ).loc main_arg0) = m ((c.tc : Thread nD τ).loc main_arg0) :=
  (θ_run defs _ _).mono (fun _ h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c)⟩)
    (run_main m ρ)

end Cert.KernelIdeal.Running

end
-- ==== Proof.RefValue.lean ====
/-
  The reference program's result is the mean total variation of the batch read as a stack of 768 images.

  The reference forms, over the whole batch [32, 8, 3, 256, 256], the differences of horizontally adjacent entries
  (columns 1..255 minus columns 0..254) and of vertically adjacent entries (rows 1..255 minus rows 0..254), adds the
  offset ε to each, takes absolute values, sums each of the two boxes of gaps from the zero initial value, adds the two
  sums and divides by the element count. Read at one index, a horizontal gap of the batch at (B, P, C, h, w) is
  |x(B, P, C, h, w+1) - x(B, P, C, h, w) + ε|; the stack's image l at row h, column w is the batch at
  (l / 24, l / 3 % 8, l % 3, h, w), so that gap is the stack's horizontal gap of image l. A sum over a batch-shaped box
  is the sum over the 768 images of the sums over the last two axes, which is the stack's gap sum. The same holds for the
  vertical gaps with the last two axes exchanged. Extended-real addition is a commutative monoid with 0 + a = a, so
  nothing is asked of the entries.
-/
import proofs.«127131_j53498112639571_1_alg».proof.Proof.Mean
import proofs.«127131_j53498112639571_1_alg».proof.Proof.Gen.ReferenceIdeal.Read
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Gen Cert.ReferenceIdeal.Read

/-! ## Where the four slices read -/

/-- The slice of columns 1..255 reads column w + 1. -/
theorem idx_v0_ix5 (a : Fin 32) (b : Fin 8) (c : Fin 3) (d : Fin 256) (e : Fin 255) :
    idx_main_v0 (ix5 a b c d e) = ix5 a b c d ⟨e.val + 1, by omega⟩ :=
  funext fun f => Fin.ext (by
    match f with
    | ⟨0, _⟩ => rfl
    | ⟨1, _⟩ => rfl
    | ⟨2, _⟩ => rfl
    | ⟨3, _⟩ => rfl
    | ⟨4, _⟩ => show 1 + e.val = e.val + 1; omega)

/-- The slice of columns 0..254 reads column w. -/
theorem idx_v1_ix5 (a : Fin 32) (b : Fin 8) (c : Fin 3) (d : Fin 256) (e : Fin 255) :
    idx_main_v1 (ix5 a b c d e) = ix5 a b c d ⟨e.val, by omega⟩ :=
  funext fun f => Fin.ext (by
    match f with
    | ⟨0, _⟩ => rfl
    | ⟨1, _⟩ => rfl
    | ⟨2, _⟩ => rfl
    | ⟨3, _⟩ => rfl
    | ⟨4, _⟩ => rfl)

/-- The slice of rows 1..255 reads row h + 1. -/
theorem idx_v5_ix5 (a : Fin 32) (b : Fin 8) (c : Fin 3) (d : Fin 255) (e : Fin 256) :
    idx_main_v5 (ix5 a b c d e) = ix5 a b c ⟨d.val + 1, by omega⟩ e :=
  funext fun f => Fin.ext (by
    match f with
    | ⟨0, _⟩ => rfl
    | ⟨1, _⟩ => rfl
    | ⟨2, _⟩ => rfl
    | ⟨3, _⟩ => show 1 + d.val = d.val + 1; omega
    | ⟨4, _⟩ => rfl)

/-- The slice of rows 0..254 reads row h. -/
theorem idx_v6_ix5 (a : Fin 32) (b : Fin 8) (c : Fin 3) (d : Fin 255) (e : Fin 256) :
    idx_main_v6 (ix5 a b c d e) = ix5 a b c ⟨d.val, by omega⟩ e :=
  funext fun f => Fin.ext (by
    match f with
    | ⟨0, _⟩ => rfl
    | ⟨1, _⟩ => rfl
    | ⟨2, _⟩ => rfl
    | ⟨3, _⟩ => rfl
    | ⟨4, _⟩ => rfl)

/-! ## One gap of the batch is one gap of the stack -/

variable (x : (⟨S32x8x3x256x256, .f32⟩ : BufTy).Contents (Elt Ideal))
  (hc : S32x8x3x256x256.ShapeCasts ⟨3, ![768, 256, 256]⟩)

/-- The reference's horizontal gap at image l, row h, column w is the stack's. -/
theorem gapW_eq (l : Fin 768) (h : Fin 256) (w : Fin 255) :
    val_main_v10 (F := Ideal) x (ix5 (Cert.TV.img0 l) (Cert.TV.img1 l) (Cert.TV.img2 l) h w)
      = Cert.TV.gapW (shapeCast ⟨3, ![768, 256, 256]⟩ x hc) l h w := by
  rw [val_main_v10_apply, val_main_v4_apply, val_main_v2_apply, val_main_v0_apply, val_main_v1_apply,
    val_main_v3_apply, val_main_cst_apply, idx_v0_ix5, idx_v1_ix5]
  unfold Cert.TV.gapW Cert.TV.absE Cert.TV.eps
  rw [Cert.TV.reshape_apply, Cert.TV.reshape_apply]
  rfl

/-- The reference's vertical gap at image l, row h, column w is the stack's. -/
theorem gapH_eq (l : Fin 768) (h : Fin 255) (w : Fin 256) :
    val_main_v12 (F := Ideal) x (ix5 (Cert.TV.img0 l) (Cert.TV.img1 l) (Cert.TV.img2 l) h w)
      = Cert.TV.gapH (shapeCast ⟨3, ![768, 256, 256]⟩ x hc) l h w := by
  rw [val_main_v12_apply, val_main_v9_apply, val_main_v7_apply, val_main_v5_apply, val_main_v6_apply,
    val_main_v8_apply, val_main_cst_0_apply, idx_v5_ix5, idx_v6_ix5]
  unfold Cert.TV.gapH Cert.TV.absE Cert.TV.eps
  rw [Cert.TV.reshape_apply, Cert.TV.reshape_apply]
  rfl

/-! ## The two full sums -/

/-- The reference's sum of horizontal gaps, from the zero initial value, is the stack's. -/
theorem sumW_eq (i : S_.Idx) :
    val_main_v11 (F := Ideal) x i = Cert.TV.sumW (shapeCast ⟨3, ![768, 256, 256]⟩ x hc) := by
  rw [val_main_v11_apply, val_main_cst_1_apply]
  show Ideal.ofBits .f32 0x00000000#32 + _ = _
  rw [Ideal.ofBits_zero_f32, zero_add, Cert.TV.sum_batch]
  unfold Cert.TV.sumW
  refine Finset.sum_congr rfl fun l _ => ?_
  refine Finset.sum_congr rfl fun h _ => ?_
  refine Finset.sum_congr rfl fun w _ => ?_
  exact gapW_eq x hc l h w

/-- The reference's sum of vertical gaps, from the zero initial value, is the stack's. -/
theorem sumH_eq (i : S_.Idx) :
    val_main_v13 (F := Ideal) x i = Cert.TV.sumH (shapeCast ⟨3, ![768, 256, 256]⟩ x hc) := by
  rw [val_main_v13_apply, val_main_cst_2_apply]
  show Ideal.ofBits .f32 0x00000000#32 + _ = _
  rw [Ideal.ofBits_zero_f32, zero_add, Cert.TV.sum_batch]
  unfold Cert.TV.sumH
  refine Finset.sum_congr rfl fun l _ => ?_
  refine Finset.sum_congr rfl fun h _ => ?_
  refine Finset.sum_congr rfl fun w _ => ?_
  exact gapH_eq x hc l h w

/-! ## The quotient -/

/-- The reference's result is the mean total variation of the batch reshaped to 768 images. -/
theorem val_eq (x : (⟨S32x8x3x256x256, .f32⟩ : BufTy).Contents (Elt Ideal))
    (hc : S32x8x3x256x256.ShapeCasts ⟨3, ![768, 256, 256]⟩) :
    val_main_v15 (F := Ideal) x = Cert.TV.tvMean (shapeCast ⟨3, ![768, 256, 256]⟩ x hc) := by
  unfold val_main_v15 Cert.TV.tvMean
  refine congrArg (fun n => Host.divf (F := Ideal) n (constant (F := Ideal) ⟨0, ![]⟩ .f32 0x4C400000#32)) ?_
  funext i
  rw [val_main_v14_apply, sumW_eq x hc i, sumH_eq x hc i]
  rfl

end Cert.ReferenceIdeal.RefValue

end
-- ==== Proof.lean ====
/-
  The mean total variation of an image batch: a Pallas kernel that streams the batch once, against jnp.

  For a batch x : f32[32, 8, 3, 256, 256] both programs compute
      ( Σ |x[…, h, w+1] - x[…, h, w] + ε|  +  Σ |x[…, h+1, w] - x[…, h, w] + ε| ) / 50331648,
  the first sum over all images, rows and 255 column pairs, the second over all images, 255 row pairs and columns, with ε
  the single-precision value nearest 1e-6 and the divisor the batch's element count (both the same words in both programs).

  The kernel reshapes the batch to a stack of 768 images, walks it in 48 blocks of 16 images, and at each block adds the
  block's two gap sums (three nested lane sums each) to a one-cell accumulator that it zeroes at the first block and
  writes back after the last; the host then divides. The reference sums the two five-axis boxes of gaps in one reduce each
  and divides. Over the extended reals, where every float operation is exact, the two are the same number: a sum of
  extended reals does not depend on how it is grouped or ordered (addition is commutative and associative, 0 + a = a), the
  blocks of 16 consecutive images tile the 768, and the reshape puts image l = (B · 8 + P) · 3 + C of the stack at (B, P, C)
  of the batch. No property of the entries is used: the precondition is never opened.

  Both sides are stated against one specification, `Cert.TV.tvMean` of the reshaped stack (Proof/Variation.lean,
  Proof/Mean.lean): the kernel's run by reading the accumulator point by point off the frame run (Proof/Pieces.lean,
  Proof/BlockGaps.lean, Proof/Running.lean), the reference's by reading its stages at an index (Proof/RefValue.lean); the
  index arithmetic they share is Proof/IndexSums.lean. The three frames are the programs' runs with the result dropped,
  and the kernel's idealization rewrote nothing.
-/
import proofs.«127131_j53498112639571_1_alg».proof.Defs
import proofs.«127131_j53498112639571_1_alg».proof.Proof.Gen.Kernel
import proofs.«127131_j53498112639571_1_alg».proof.Proof.Gen.Kernel.Skeleton
import proofs.«127131_j53498112639571_1_alg».proof.Proof.Gen.Kernel.Launch
import proofs.«127131_j53498112639571_1_alg».proof.Proof.Gen.Kernel.Points
import proofs.«127131_j53498112639571_1_alg».proof.Proof.Gen.Kernel.Frame
import proofs.«127131_j53498112639571_1_alg».proof.Proof.Gen.KernelIdeal
import proofs.«127131_j53498112639571_1_alg».proof.Proof.Gen.KernelIdeal.Skeleton
import proofs.«127131_j53498112639571_1_alg».proof.Proof.Gen.KernelIdeal.Launch
import proofs.«127131_j53498112639571_1_alg».proof.Proof.Gen.KernelIdeal.Points
import proofs.«127131_j53498112639571_1_alg».proof.Proof.Gen.KernelIdeal.Frame
import proofs.«127131_j53498112639571_1_alg».proof.Proof.Gen.ReferenceIdeal
import proofs.«127131_j53498112639571_1_alg».proof.Proof.Gen.Pre_finite_inputs
import proofs.«127131_j53498112639571_1_alg».proof.Proof.Gen.ReferenceIdeal.Run
import proofs.«127131_j53498112639571_1_alg».proof.Proof.Gen.ReferenceIdeal.Read
import proofs.«127131_j53498112639571_1_alg».proof.Proof.Running
import proofs.«127131_j53498112639571_1_alg».proof.Proof.RefValue
import Idealize.ShloMosaic.Adequacy
import Idealize.ShloMosaic.Init

noncomputable section

namespace Cert.Proof

open Idealize.ShloMosaic Idealize.SL.Sem

/-- The word-level kernel runs and leaves the batch unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the batch, the kernel ends at the mean total variation of the
    stack it reshaped the batch to, and the reference at the mean total variation of the batch read as that same stack. -/
theorem algebraic : Cert.algebraic_KernelIdeal_ReferenceIdeal := by
  intro m ρ m' ρ' _ hagree
  refine ⟨fun c => Cert.TV.tvMean (Cert.KernelIdeal.Running.xarr m c), Cert.KernelIdeal.Running.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq,
    Cert.ReferenceIdeal.RefValue.val_eq _ Cert.KernelIdeal.Gen.shapeCasts_S32x8x3x256x256_S768x256x256, hagree c]
  show _ = Cert.TV.tvMean (Cert.KernelIdeal.Running.xarr m c)
  rw [Cert.KernelIdeal.Running.xarr_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
